-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x64x2 : Shape := ⟨4, ![128, 64, 64, 2]⟩
abbrev S128x64x128 : Shape := ⟨3, ![128, 64, 128]⟩
abbrev S128x64x64 : Shape := ⟨3, ![128, 64, 64]⟩
abbrev S128x258 : Shape := ⟨2, ![128, 258]⟩
abbrev S128 : Shape := ⟨1, ![128]⟩
abbrev S_ : Shape := ⟨0, ![]⟩

class Facts : Prop where
  bcast_S_S128x64x64x2 : S_.BroadcastsInDim S128x64x64x2 (![] : Fin 0 → Fin S128x64x64x2.rank)
  reducesTo_S128x64x64x2_S_d0_1_2_3 : S128x64x64x2.ReducesTo [0, 1, 2, 3] S_
  h_S_ : 0 < S_.numel
  bcast_S_S128x64x128 : S_.BroadcastsInDim S128x64x128 (![] : Fin 0 → Fin S128x64x128.rank)
  reducesTo_S128x64x128_S_d0_1_2 : S128x64x128.ReducesTo [0, 1, 2] S_
  bcast_S_S128x64x64 : S_.BroadcastsInDim S128x64x64 (![] : Fin 0 → Fin S128x64x64.rank)
  reducesTo_S128x64x64_S_d0_1_2 : S128x64x64.ReducesTo [0, 1, 2] S_
  bcast_S_S128x258 : S_.BroadcastsInDim S128x258 (![] : Fin 0 → Fin S128x258.rank)
  reducesTo_S128x258_S_d0_1 : S128x258.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x258 1) : IVec S_ 1 :=
  let main_c_5 : IVec S_ 1 := constantI S_ 1 1#1
  let main_v17 : IVec S_ 1 := (fun x v => Host.reduce IntOp.andi x v reducesTo_S128x258_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S128x64x64x2 .f32) (main_arg1 : FVec F S128x64x128 .f32) (main_arg2 : FVec F S128x64x64 .f32) (main_arg3 : FVec F S128x258 .f32) (main_arg4 : FVec F S128 .f32) : IVec S_ 1 :=
  let main_v0 : FVec F S128x64x64x2 .f32 := Host.absf main_arg0
  let main_cst : FVec F S_ .f32 := constant S_ .f32 0x7F800000#32
  let main_v1 : FVec F S128x64x64x2 .f32 := broadcastInDim S128x64x64x2 ![] bcast_S_S128x64x64x2 main_cst
  let main_v2 : IVec S128x64x64x2 1 := cmpf .olt main_v0 main_v1
  let main_c : IVec S_ 1 := constantI S_ 1 1#1
  let main_v3 : IVec S_ 1 := (fun x v => Host.reduce IntOp.andi x v reducesTo_S128x64x64x2_S_d0_1_2_3 h_S_) main_v2 main_c
  let main_v4 : FVec F S128x64x128 .f32 := Host.absf main_arg1
  let main_cst_0 : FVec F S_ .f32 := constant S_ .f32 0x7F800000#32
  let main_v5 : FVec F S128x64x128 .f32 := broadcastInDim S128x64x128 ![] bcast_S_S128x64x128 main_cst_0
  let main_v6 : IVec S128x64x128 1 := cmpf .olt main_v4 main_v5
  let main_c_1 : IVec S_ 1 := constantI S_ 1 1#1
  let main_v7 : IVec S_ 1 := (fun x v => Host.reduce IntOp.andi x v reducesTo_S128x64x128_S_d0_1_2 h_S_) main_v6 main_c_1
  let main_v8 : IVec S_ 1 := andi main_v3 main_v7
  let main_v9 : FVec F S128x64x64 .f32 := Host.absf main_arg2
  let main_cst_2 : FVec F S_ .f32 := constant S_ .f32 0x7F800000#32
  let main_v10 : FVec F S128x64x64 .f32 := broadcastInDim S128x64x64 ![] bcast_S_S128x64x64 main_cst_2
  let main_v11 : IVec S128x64x64 1 := cmpf .olt main_v9 main_v10
  let main_c_3 : IVec S_ 1 := constantI S_ 1 1#1
  let main_v12 : IVec S_ 1 := (fun x v => Host.reduce IntOp.andi x v reducesTo_S128x64x64_S_d0_1_2 h_S_) main_v11 main_c_3
  let main_v13 : IVec S_ 1 := andi main_v8 main_v12
  let main_v14 : FVec F S128x258 .f32 := Host.absf main_arg3
  let main_cst_4 : FVec F S_ .f32 := constant S_ .f32 0x7F800000#32
  let main_v15 : FVec F S128x258 .f32 := broadcastInDim S128x258 ![] bcast_S_S128x258 main_cst_4
  let main_v16 : IVec S128x258 1 := cmpf .olt main_v14 main_v15
  fn_part1 (F := F) main_arg4 main_v13 main_v16
-- ==== Kernel.lean ====
abbrev S128x64x64x2 : Shape := ⟨4, ![128, 64, 64, 2]⟩
abbrev S128x64x128 : Shape := ⟨3, ![128, 64, 128]⟩
abbrev S128x64x64 : Shape := ⟨3, ![128, 64, 64]⟩
abbrev S128x258 : Shape := ⟨2, ![128, 258]⟩
abbrev S128 : Shape := ⟨1, ![128]⟩
abbrev S1x64x64x2 : Shape := ⟨4, ![1, 64, 64, 2]⟩
abbrev S1x64x128 : Shape := ⟨3, ![1, 64, 128]⟩
abbrev S1x64x64 : Shape := ⟨3, ![1, 64, 64]⟩
abbrev S64x64x2 : Shape := ⟨3, ![64, 64, 2]⟩
abbrev S64x128 : Shape := ⟨2, ![64, 128]⟩
abbrev S64x64 : Shape := ⟨2, ![64, 64]⟩
abbrev S128x128 : Shape := ⟨2, ![128, 128]⟩
abbrev S128x2 : Shape := ⟨2, ![128, 2]⟩
abbrev S1x128 : Shape := ⟨2, ![1, 128]⟩
abbrev S64x64x1 : Shape := ⟨3, ![64, 64, 1]⟩
abbrev S64x2 : Shape := ⟨2, ![64, 2]⟩
abbrev S128x1 : Shape := ⟨2, ![128, 1]⟩
abbrev S64x1 : Shape := ⟨2, ![64, 1]⟩

abbrev nBuf : Space → Nat
  | .hbm => 6
  | .vmem => 10
  | .smem => 0
  | _ => 0

abbrev bufTy : (tb : Table) → Fin (tcTables nBuf tb) → BufTy
  | .hbm, ⟨0, _⟩ => ⟨S128x64x64x2, .f32⟩
  | .hbm, ⟨1, _⟩ => ⟨S128x64x128, .f32⟩
  | .hbm, ⟨2, _⟩ => ⟨S128x64x64, .f32⟩
  | .hbm, ⟨3, _⟩ => ⟨S128x258, .f32⟩
  | .hbm, ⟨4, _⟩ => ⟨S128, .f32⟩
  | .hbm, ⟨5, _⟩ => ⟨S128x64x128, .f32⟩
  | .local _ .vmem, ⟨0, _⟩ => ⟨S1x64x64x2, .f32⟩
  | .local _ .vmem, ⟨1, _⟩ => ⟨S1x64x64x2, .f32⟩
  | .local _ .vmem, ⟨2, _⟩ => ⟨S1x64x128, .f32⟩
  | .local _ .vmem, ⟨3, _⟩ => ⟨S1x64x128, .f32⟩
  | .local _ .vmem, ⟨4, _⟩ => ⟨S1x64x64, .f32⟩
  | .local _ .vmem, ⟨5, _⟩ => ⟨S1x64x64, .f32⟩
  | .local _ .vmem, ⟨6, _⟩ => ⟨S128x258, .f32⟩
  | .local _ .vmem, ⟨7, _⟩ => ⟨S128, .f32⟩
  | .local _ .vmem, ⟨8, _⟩ => ⟨S1x64x128, .f32⟩
  | .local _ .vmem, ⟨9, _⟩ => ⟨S1x64x128, .f32⟩
  | _, _ => ⟨S128x64x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x258 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x64x64x2_S1x64x64x2_0_0_0_0 : ∀ a, (![0, 0, 0, 0] : Fin 4 → Nat) a + S1x64x64x2.size a ≤ S1x64x64x2.size a
  h_S1x64x64x2 : 0 < S1x64x64x2.numel
  shapeCasts_S1x64x64x2_S64x64x2 : S1x64x64x2.ShapeCasts S64x64x2
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S128x258_S128x258_0_0 : ∀ a, (![0, 0] : Fin 2 → Nat) a + S128x258.size a ≤ S128x258.size a
  h_S128x258 : 0 < S128x258.numel
  inb_S128_S128_0 : ∀ a, (![0] : Fin 1 → Nat) a + S128.size a ≤ S128.size a
  h_S128 : 0 < S128.numel
  slices_S128x258_o0_0_S128x128 : S128x258.Slices ![0, 0] S128x128
  slices_S128x258_o0_128_S128x128 : S128x258.Slices ![0, 128] S128x128
  slices_S128x258_o0_256_S128x2 : S128x258.Slices ![0, 256] S128x2
  bitsLt_bf16_f32 : FTy.bits .bf16 < FTy.bits .f32
  transposes_S128x128_p1_0_S128x128 : S128x128.Transposes [1, 0] S128x128
  shapeCasts_S128_S1x128 : S128.ShapeCasts S1x128
  broadcasts_S1x128_S64x128 : S1x128.Broadcasts S64x128
  iota_S64x64_d0_w32 : S64x64.Iotas .tc 32 [0]
  iota_S64x64_d1_w32 : S64x64.Iotas .tc 32 [1]
  natLt_1_32 : 1 < 32
  shapeCasts_S64x64_S64x64x1 : S64x64.ShapeCasts S64x64x1
  broadcasts_S64x64x1_S64x64x2 : S64x64x1.Broadcasts S64x64x2
  reduces_S64x64x2_S64x2 : S64x64x2.Reduces [1] S64x2
  slices_S128x2_o0_0_S128x1 : S128x2.Slices ![0, 0] S128x1
  shapeCasts_S128x1_S128 : S128x1.ShapeCasts S128
  slices_S128x2_o0_1_S128x1 : S128x2.Slices ![0, 1] S128x1
  slices_S64x2_o0_0_S64x1 : S64x2.Slices ![0, 0] S64x1
  broadcasts_S64x1_S64x128 : S64x1.Broadcasts S64x128
  slices_S64x2_o0_1_S64x1 : S64x2.Slices ![0, 1] S64x1
  shapeCasts_S64x128_S1x64x128 : S64x128.ShapeCasts S1x64x128
  dot_S64x128_S128x128_S64x128_1_0_0_1_n_n_wf : DotDims.WF S64x128 S128x128 S64x128 [1] [0] [0] [1] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x2.size a ≤ S128x64x64x2.size a
  hwx0_0 : ∀ i : grid0.Coords, EltTy.bits .f32 = 32 ∨ (Rect.block (s := S128x64x64x2) S1x64x64x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S128x64x128.size a
  hwx0_1 : ∀ i : grid0.Coords, EltTy.bits .f32 = 32 ∨ (Rect.block (s := S128x64x128) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S128x64x64.size a
  hwx0_2 : ∀ i : grid0.Coords, EltTy.bits .f32 = 32 ∨ (Rect.block (s := S128x64x64) S1x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x258.size a ≤ S128x258.size a
  hwx0_3 : ∀ i : grid0.Coords, EltTy.bits .f32 = 32 ∨ (Rect.block (s := S128x258) S128x258.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S128x64x128.size a
  hwx0_5 : ∀ i : grid0.Coords, EltTy.bits .f32 = 32 ∨ (Rect.block (s := S128x64x128) S1x64x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S1x64x64x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x258.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x64x64x2 : Shape := ⟨4, ![128, 64, 64, 2]⟩
abbrev S128x64x128 : Shape := ⟨3, ![128, 64, 128]⟩
abbrev S128x64x64 : Shape := ⟨3, ![128, 64, 64]⟩
abbrev S128x258 : Shape := ⟨2, ![128, 258]⟩
abbrev S128 : Shape := ⟨1, ![128]⟩
abbrev S128x64x1x128 : Shape := ⟨4, ![128, 64, 1, 128]⟩
abbrev S128x64x64x128 : Shape := ⟨4, ![128, 64, 64, 128]⟩
abbrev S128x1x64x128 : Shape := ⟨4, ![128, 1, 64, 128]⟩
abbrev S128x64x64x1 : Shape := ⟨4, ![128, 64, 64, 1]⟩
abbrev S128x64x64x130 : Shape := ⟨4, ![128, 64, 64, 130]⟩
abbrev S128x64x64x258 : Shape := ⟨4, ![128, 64, 64, 258]⟩
abbrev S1x1x1x128 : Shape := ⟨4, ![1, 1, 1, 128]⟩
abbrev S64x64 : Shape := ⟨2, ![64, 64]⟩
abbrev S_ : Shape := ⟨0, ![]⟩
abbrev S1x64x64x1 : Shape := ⟨4, ![1, 64, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S128x64x64x2, .f32⟩
  | .hbm, ⟨1, _⟩ => ⟨S128x64x128, .f32⟩
  | .hbm, ⟨2, _⟩ => ⟨S128x64x64, .f32⟩
  | .hbm, ⟨3, _⟩ => ⟨S128x258, .f32⟩
  | .hbm, ⟨4, _⟩ => ⟨S128, .f32⟩
  | .hbm, ⟨5, _⟩ => ⟨S128x64x1x128, .f32⟩
  | .hbm, ⟨6, _⟩ => ⟨S128x64x64x128, .f32⟩
  | .hbm, ⟨7, _⟩ => ⟨S128x1x64x128, .f32⟩
  | .hbm, ⟨8, _⟩ => ⟨S128x64x64x128, .f32⟩
  | .hbm, ⟨9, _⟩ => ⟨S128x64x64x1, .f32⟩
  | .hbm, ⟨10, _⟩ => ⟨S128x64x64x130, .f32⟩
  | .hbm, ⟨11, _⟩ => ⟨S128x64x64x130, .f32⟩
  | .hbm, ⟨12, _⟩ => ⟨S128x64x64x130, .f32⟩
  | .hbm, ⟨13, _⟩ => ⟨S128x64x64x258, .f32⟩
  | .hbm, ⟨14, _⟩ => ⟨S128x64x64x128, .f32⟩
  | .hbm, ⟨15, _⟩ => ⟨S1x1x1x128, .f32⟩
  | .hbm, ⟨16, _⟩ => ⟨S128x64x64x128, .f32⟩
  | .hbm, ⟨17, _⟩ => ⟨S128x64x64x128, .f32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S1x64x64x1, .f32⟩
  | .hbm, ⟨29, _⟩ => ⟨S128x64x64x128, .f32⟩
  | .hbm, ⟨30, _⟩ => ⟨S128x64x64x128, .f32⟩
  | .hbm, ⟨31, _⟩ => ⟨S_, .f32⟩
  | .hbm, ⟨32, _⟩ => ⟨S128x64x128, .f32⟩
  | .hbm, ⟨33, _⟩ => ⟨S_, .f32⟩
  | .hbm, ⟨34, _⟩ => ⟨S128x64x128, .f32⟩
  | .hbm, ⟨35, _⟩ => ⟨S128x64x128, .f32⟩
  | _, _ => ⟨S128x64x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S128x64x128_S128x64x1x128_0_1_3 : S128x64x128.BroadcastsInDim S128x64x1x128 (![0, 1, 3] : Fin 3 → Fin S128x64x1x128.rank)
  bcast_S128x64x1x128_S128x64x64x128_0_1_2_3 : S128x64x1x128.BroadcastsInDim S128x64x64x128 (![0, 1, 2, 3] : Fin 4 → Fin S128x64x64x128.rank)
  bcast_S128x64x128_S128x1x64x128_0_2_3 : S128x64x128.BroadcastsInDim S128x1x64x128 (![0, 2, 3] : Fin 3 → Fin S128x1x64x128.rank)
  bcast_S128x1x64x128_S128x64x64x128_0_1_2_3 : S128x1x64x128.BroadcastsInDim S128x64x64x128 (![0, 1, 2, 3] : Fin 4 → Fin S128x64x64x128.rank)
  bcast_S128x64x64_S128x64x64x1_0_1_2 : S128x64x64.BroadcastsInDim S128x64x64x1 (![0, 1, 2] : Fin 3 → Fin S128x64x64x1.rank)
  concatenates_S128x64x64x128_S128x64x64x2_S128x64x64x130_d3 : Shape.Concatenates [S128x64x64x128, S128x64x64x2] S128x64x64x130 3
  bcast_S128x64x64x1_S128x64x64x130_0_1_2_3 : S128x64x64x1.BroadcastsInDim S128x64x64x130 (![0, 1, 2, 3] : Fin 4 → Fin S128x64x64x130.rank)
  concatenates_S128x64x64x128_S128x64x64x130_S128x64x64x258_d3 : Shape.Concatenates [S128x64x64x128, S128x64x64x130] S128x64x64x258 3
  bcast_S128_S1x1x1x128_3 : S128.BroadcastsInDim S1x1x1x128 (![3] : Fin 1 → Fin S1x1x1x128.rank)
  bcast_S1x1x1x128_S128x64x64x128_0_1_2_3 : S1x1x1x128.BroadcastsInDim S128x64x64x128 (![0, 1, 2, 3] : Fin 4 → Fin S128x64x64x128.rank)
  bcast_S_S64x64 : S_.BroadcastsInDim S64x64 (![] : Fin 0 → Fin S64x64.rank)
  bcast_S64x64_S1x64x64x1_1_2 : S64x64.BroadcastsInDim S1x64x64x1 (![1, 2] : Fin 2 → Fin S1x64x64x1.rank)
  bcast_S1x64x64x1_S128x64x64x128_0_1_2_3 : S1x64x64x1.BroadcastsInDim S128x64x64x128 (![0, 1, 2, 3] : Fin 4 → Fin S128x64x64x128.rank)
  reducesTo_S128x64x64x128_S128x64x128_d2 : S128x64x64x128.ReducesTo [2] S128x64x128
  h_S_ : 0 < S_.numel
  bcast_S_S128x64x128 : S_.BroadcastsInDim S128x64x128 (![] : Fin 0 → Fin S128x64x128.rank)
  dot_S128x64x64x258_S128x258_S128x64x64x128_3_1_012_0_n_n_wf : DotDims.WF S128x64x64x258 S128x258 S128x64x64x128 [3] [1] [0, 1, 2] [0] [] []

variable [Facts₀]

def dot_S128x64x64x258_S128x258_S128x64x64x128_3_1_012_0_n_n : DotDims S128x64x64x258 S128x258 S128x64x64x128 where
  lhsContracting := [3]
  rhsContracting := [1]
  lhsNonContracting := [0, 1, 2]
  rhsNonContracting := [0]
  lhsBatch := []
  rhsBatch := []
  wf := dot_S128x64x64x258_S128x258_S128x64x64x128_3_1_012_0_n_n_wf

class Facts : Prop extends Facts₀ where

variable [Facts]
-- ==== Proof.Spec.lean ====
/-
  Message aggregation over the edges of a complete graph on 64 agents, per batch element b (128 of them).

  Agent i receives from every other agent j the message  W · [f_i ; A_ij f_j ; A_ij d_ij] + β,  where f_i, f_j are the
  128 features of receiver and sender, A_ij the adjacency weight, d_ij the 2 coordinates of their difference vector,
  W a 128 × 258 matrix (columns 0..127 meet the receiver's features, 128..255 the sender's, 256..257 the difference
  vector) and β a bias of length 128.  The result at (b, i, o) is the rectified sum of output o over the 63 senders j ≠ i.

  Two spellings of that number:
  * perEdge: the sum over ALL j of the message's output o times 0 on the diagonal and 1 off it;
  * factored: 63 · (W₁ f_i + β) + Σ_j A'_ij (W₂ f_j) + (Σ_j A'_ij d_ij0) W_o,256 + (Σ_j A'_ij d_ij1) W_o,257,
    with A' the adjacency with its diagonal zeroed.
  They agree on real inputs (Algebra.lean); on the extended reals they need not (a product 0 · ∞ is 0 there, and
  the distributive law fails at the infinities).
-/
import Idealize.ShloMosaic.PureOps.Ideal
import Idealize.ShloMosaic.Lib.ValueIdx

noncomputable section

open scoped BigOperators

namespace Cert.EdgeAgg

open Idealize.ShloMosaic Idealize.ShloMosaic.ValueIdx

/-- difference vectors [batch, receiver, sender, coordinate] -/
abbrev SDiff : Shape := ⟨4, ![128, 64, 64, 2]⟩
/-- agent features [batch, agent, feature] -/
abbrev SFeat : Shape := ⟨3, ![128, 64, 128]⟩
/-- adjacency weights [batch, receiver, sender] -/
abbrev SAdj : Shape := ⟨3, ![128, 64, 64]⟩
/-- the linear layer's matrix [output, input] -/
abbrev SW : Shape := ⟨2, ![128, 258]⟩
/-- its bias [output] -/
abbrev SBias : Shape := ⟨1, ![128]⟩

/-- 0 on the diagonal, 1 off it. -/
def offDiag (i j : Fin 64) : EReal := if i = j then 0 else 1

/-- The matrix column that meets the receiver's feature k, -/
def colRecv (k : Fin 128) : Fin 258 := ⟨k.val, by omega⟩
/-- the sender's feature k, -/
def colSend (k : Fin 128) : Fin 258 := ⟨128 + k.val, by omega⟩
/-- and coordinate c of the difference vector. -/
def colDiff (c : Fin 2) : Fin 258 := ⟨256 + c.val, by omega⟩

variable (d : SDiff.Idx → EReal) (f : SFeat.Idx → EReal) (A : SAdj.Idx → EReal) (W : SW.Idx → EReal) (β : SBias.Idx → EReal)

/-- Output o of the receiver block of W applied to agent i's features. -/
def recvDot (b : Fin 128) (i : Fin 64) (o : Fin 128) : EReal := ∑ k : Fin 128, f (ix3 b i k) * W (ix2 o (colRecv k))

/-- Output o of the sender block of W applied to agent j's features. -/
def sendDot (b : Fin 128) (j : Fin 64) (o : Fin 128) : EReal := ∑ k : Fin 128, f (ix3 b j k) * W (ix2 o (colSend k))

/-- The sum over all senders of each edge's message, the diagonal masked out, rectified. -/
def perEdge (b : Fin 128) (i : Fin 64) (o : Fin 128) : EReal :=
  max (0 + ∑ j : Fin 64,
      ((recvDot f W b i o
          + ((∑ k : Fin 128, (A (ix3 b i j) * f (ix3 b j k)) * W (ix2 o (colSend k)))
            + ∑ c : Fin 2, (A (ix3 b i j) * d (ix4 b i j c)) * W (ix2 o (colDiff c))))
        + β (ix1 o)) * offDiag i j) 0

/-- The same with the matrix pulled out of the sum over senders. -/
def factored (b : Fin 128) (i : Fin 64) (o : Fin 128) : EReal :=
  max ((((63 : ℝ) : EReal) * (recvDot f W b i o + β (ix1 o))
        + ∑ j : Fin 64, (A (ix3 b i j) * offDiag i j) * sendDot f W b j o)
      + ((∑ j : Fin 64, (A (ix3 b i j) * offDiag i j) * d (ix4 b i j 0)) * W (ix2 o (colDiff 0))
        + (∑ j : Fin 64, (A (ix3 b i j) * offDiag i j) * d (ix4 b i j 1)) * W (ix2 o (colDiff 1)))) 0

/-- Every entry of the array is a real number: neither infinity. -/
def AllReal {S : Shape} (a : S.Idx → EReal) : Prop := ∀ y, ∃ r : ℝ, a y = (r : EReal)

end Cert.EdgeAgg

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.KernelTerms.lean ====
/-
  The kernel body's values at one entry of a block.

  The body works on one batch element: its feature block [1, 64, 128], adjacency block [1, 64, 64], difference-vector
  block [1, 64, 64, 2], the whole matrix [128, 258] and bias [128].  Read at one entry each intermediate value is a
  plain sum or product of entries of those blocks:
  * the adjacency with its diagonal zeroed: the entry times 0 or 1;
  * the receiver term: 63 times (the row of features against the first 128 columns of the matrix, plus the bias);
  * the sender term: the masked adjacency row against the senders' features taken against columns 128..255;
  * the two difference-vector sums: the masked adjacency row against one coordinate of the difference vectors.
  A change of float format is the identity on the extended reals, and a matrix product accumulated from zero is the
  plain sum of products.
-/
import proofs.«101263_j33277406609831_1_alg».proof.Proof.Spec
import proofs.«101263_j33277406609831_1_alg».proof.Proof.LibBlocks
import proofs.«101263_j33277406609831_1_alg».proof.Proof.Gen.KernelIdeal.Skeleton
import Idealize.ShloMosaic.Lib.ValueLayout
import Idealize.ShloMosaic.Lib.Pipeline.Value
import Idealize.ShloMosaic.PureOps.Ideal.Laws

noncomputable section

open scoped BigOperators

namespace Cert.KernelIdeal.Terms

open Cert.KernelIdeal Cert.KernelIdeal.Gen Idealize.ShloMosaic Idealize.ShloMosaic.ValueIdx Cert.EdgeAgg

/-! ## The mask -/

/-- The comparison "row index ≠ column index", widened to a word: 0 on the diagonal, 1 off it. -/
theorem mask_word : ∀ i j : Fin 64,
    (IntOp.cmpi .ne (BitVec.ofNat 32 i.val) (BitVec.ofNat 32 j.val)).setWidth 32 = if i = j then 0#32 else 1#32 := by
  decide +kernel

/-- The adjacency block with its diagonal zeroed, at entry (i, j). -/
theorem maskedAdj_apply (P3 : Vec Ideal S1x64x64 .f32) (i j : Fin 64) :
    k0_pay5 P3 (ix2 i j) = P3 (ix3 (0 : Fin 1) i j) * offDiag i j := by
  have e : k0_pay5 P3 = mulf (shapeCast S64x64 P3 shapeCasts_S1x64x64_S64x64)
      (sitofp .f32 (extui 32 (cmpi .ne (iota .tc S64x64 32 [0] iota_S64x64_d0_w32) (iota .tc S64x64 32 [1] iota_S64x64_d1_w32)) natLt_1_32)) := rfl
  rw [e, mulf_apply, shapeCast_1ab_ab_apply]
  congr 1
  show ((((IntOp.cmpi .ne (iota .tc S64x64 32 [0] iota_S64x64_d0_w32 (ix2 i j)) (iota .tc S64x64 32 [1] iota_S64x64_d1_w32 (ix2 i j))).setWidth 32).toInt : ℝ) : EReal) = offDiag i j
  rw [iota_single_apply, iota_single_apply]
  show ((((IntOp.cmpi .ne (BitVec.ofNat 32 i.val) (BitVec.ofNat 32 j.val)).setWidth 32).toInt : ℝ) : EReal) = offDiag i j
  rw [mask_word]
  unfold offDiag
  split <;> simp

/-! ## The features, narrowed for the matrix unit -/

/-- The feature block with its unit axis dropped, at entry (i, k). -/
theorem feat_apply (P0 : Vec Ideal S1x64x128 .f32) (i : Fin 64) (k : Fin 128) :
    k0_pay3 P0 (ix2 i k) = P0 (ix3 (0 : Fin 1) i k) := by
  have e : k0_pay3 P0 = truncf .bf16 (shapeCast S64x128 P0 shapeCasts_S1x64x128_S64x128) bitsLt_bf16_f32 := rfl
  rw [e, truncf_apply, shapeCast_1ab_ab_apply]

/-- The two matrix products of the body contract the second axis of the left operand with the first of the right. -/
theorem dot_feat_plain : dot_S64x128_S128x128_S64x128_1_0_0_1_n_n = DotDims.plain 64 128 128 := rfl
theorem dot_adj_plain : dot_S64x64_S64x128_S64x128_1_0_0_1_n_n = DotDims.plain 64 64 128 := rfl

/-- A 128-column band of the matrix starting at column `off`, narrowed and transposed, at entry (k, o): the
    matrix at (o, off + k). -/
theorem band_apply (P1 : Vec Ideal S128x258 .f32) (off : Nat) (h : S128x258.Slices ![0, off] S128x128) (k o : Fin 128)
    (c : Fin 258) (hc : c.val = off + k.val) :
    (transpose S128x128 [1, 0] (truncf (F := Ideal) .bf16 (extractStridedSlice S128x128 ![0, off] P1 h) bitsLt_bf16_f32)
      transposes_S128x128_p1_0_S128x128 (ix2 k o) : EReal) = P1 (ix2 o c) := by
  rw [transpose_ix2_apply, truncf_apply]
  exact slice2_axis1_apply off P1 h o k c hc

/-! ## The receiver term -/

/-- 63 · (features of agent i against the first band of the matrix + bias), at entry (i, o). -/
theorem recvTerm_apply (P0 : Vec Ideal S1x64x128 .f32) (P1 : Vec Ideal S128x258 .f32) (P2 : Vec Ideal S128 .f32)
    (i : Fin 64) (o : Fin 128) :
    k0_pay4 P0 P1 P2 (ix2 i o)
      = Ideal.ofBits .f32 0x427C0000#32
        * ((∑ k : Fin 128, P0 (ix3 (0 : Fin 1) i k) * P1 (ix2 o (colRecv k))) + P2 (ix1 o)) := by
  have e : k0_pay4 P0 P1 P2 = mulf (broadcast S64x128 (Scalar.ofBits .f32 0x427C0000#32))
      (addf (matmul dot_S64x128_S128x128_S64x128_1_0_0_1_n_n none (k0_pay3 P0)
          (transpose S128x128 [1, 0] (truncf .bf16 (extractStridedSlice S128x128 ![0, 0] P1 slices_S128x258_o0_0_S128x128) bitsLt_bf16_f32) transposes_S128x128_p1_0_S128x128)
          (constant S64x128 .f32 0x00000000#32))
        (broadcastTo S64x128 (shapeCast S1x128 P2 shapeCasts_S128_S1x128) broadcasts_S1x128_S64x128)) := rfl
  rw [e, mulf_apply, addf_apply, broadcast_apply, broadcastTo_1b_ab_apply, shapeCast_a_1a_apply]
  congr 2
  refine (Cert.LibBlocks.matmul_plain_apply _ dot_feat_plain none _ _ i o).trans ?_
  refine Finset.sum_congr rfl fun k _ => ?_
  rw [feat_apply, band_apply P1 0 slices_S128x258_o0_0_S128x128 k o (colRecv k) (by show k.val = 0 + k.val; omega)]

/-- The word of the factor 63.0 denotes the real number 63. -/
theorem ofBits_63 : Ideal.ofBits .f32 0x427C0000#32 = ((63 : ℝ) : EReal) := by
  simp [Ideal.ofBits, Ideal.ieee, -EReal.coe_mul]; norm_num

/-! ## The sender term -/

/-- Agent j's features against the second band of the matrix, at entry (j, o). -/
theorem sendFeat_apply (P0 : Vec Ideal S1x64x128 .f32) (P1 : Vec Ideal S128x258 .f32) (j : Fin 64) (o : Fin 128) :
    (matmul dot_S64x128_S128x128_S64x128_1_0_0_1_n_n none (k0_pay3 P0)
        (transpose S128x128 [1, 0] (truncf (F := Ideal) .bf16 (extractStridedSlice S128x128 ![0, 128] P1 slices_S128x258_o0_128_S128x128) bitsLt_bf16_f32) transposes_S128x128_p1_0_S128x128)
        (constant S64x128 .f32 0x00000000#32) (ix2 j o) : EReal)
      = ∑ k : Fin 128, P0 (ix3 (0 : Fin 1) j k) * P1 (ix2 o (colSend k)) := by
  refine (Cert.LibBlocks.matmul_plain_apply _ dot_feat_plain none _ _ j o).trans ?_
  refine Finset.sum_congr rfl fun k _ => ?_
  rw [feat_apply, band_apply P1 128 slices_S128x258_o0_128_S128x128 k o (colSend k) rfl]

/-- The masked adjacency row of agent i against the senders' projected features, at entry (i, o). -/
theorem sendTerm_apply (P0 : Vec Ideal S1x64x128 .f32) (P3 : Vec Ideal S1x64x64 .f32) (P1 : Vec Ideal S128x258 .f32)
    (i : Fin 64) (o : Fin 128) :
    k0_pay6 P0 P3 P1 (ix2 i o)
      = ∑ j : Fin 64, (P3 (ix3 (0 : Fin 1) i j) * offDiag i j)
          * (∑ k : Fin 128, P0 (ix3 (0 : Fin 1) j k) * P1 (ix2 o (colSend k))) := by
  have e : k0_pay6 P0 P3 P1 = matmul dot_S64x64_S64x128_S64x128_1_0_0_1_n_n none (truncf .bf16 (k0_pay5 P3) bitsLt_bf16_f32)
      (truncf .bf16 (matmul dot_S64x128_S128x128_S64x128_1_0_0_1_n_n none (k0_pay3 P0)
        (transpose S128x128 [1, 0] (truncf .bf16 (extractStridedSlice S128x128 ![0, 128] P1 slices_S128x258_o0_128_S128x128) bitsLt_bf16_f32) transposes_S128x128_p1_0_S128x128)
        (constant S64x128 .f32 0x00000000#32)) bitsLt_bf16_f32)
      (constant S64x128 .f32 0x00000000#32) := rfl
  rw [e]
  refine (Cert.LibBlocks.matmul_plain_apply _ dot_adj_plain none _ _ i o).trans ?_
  refine Finset.sum_congr rfl fun j _ => ?_
  rw [truncf_apply, truncf_apply, maskedAdj_apply, sendFeat_apply]

/-! ## The difference-vector sums -/

/-- The masked adjacency row of agent i against coordinate c of its difference vectors, at entry (i, c). -/
theorem diffSum_apply (P3 : Vec Ideal S1x64x64 .f32) (P4 : Vec Ideal S1x64x64x2 .f32) (i : Fin 64) (c : Fin 2) :
    (multiReduction .add [1] S64x2
        (mulf (broadcastTo S64x64x2 (shapeCast S64x64x1 (k0_pay5 P3) shapeCasts_S64x64_S64x64x1) broadcasts_S64x64x1_S64x64x2)
          (shapeCast S64x64x2 P4 shapeCasts_S1x64x64x2_S64x64x2))
        0x00000000#32 reduces_S64x64x2_S64x2 (.inl rfl) rfl (ix2 i c) : EReal)
      = ∑ j : Fin 64, (P3 (ix3 (0 : Fin 1) i j) * offDiag i j) * P4 (ix4 (0 : Fin 1) i j c) := by
  refine (Ideal.multiReduction_add_single _ 0x00000000#32 reduces_S64x64x2_S64x2 (.inl rfl) rfl (ix2 i c)).trans ?_
  refine Finset.sum_congr (s₁ := (Finset.univ : Finset (Fin 64))) rfl fun (j : Fin 64) _ => ?_
  have hl : reduces_S64x64x2_S64x2.lift (ix2 i c) j = ix3 i j c := funext fun a => Fin.ext (by
    match a with
    | ⟨0, _⟩ => rfl
    | ⟨1, _⟩ => rfl
    | ⟨2, _⟩ => rfl)
  rw [hl, mulf_apply, shapeCast_1abc_abc_apply]
  congr 1
  refine (broadcastTo_apply _ broadcasts_S64x64x1_S64x64x2 (ix3 i j c) (ix3 i j (0 : Fin 1)) (fun a => by
    match a with
    | ⟨0, _⟩ => rfl
    | ⟨1, _⟩ => rfl
    | ⟨2, _⟩ => rfl)).trans ?_
  refine (shapeCast_apply _ shapeCasts_S64x64_S64x64x1 (ix3 i j (0 : Fin 1)) (ix2 i j) (by
    rw [Shape.rowMajor_val_two, Shape.rowMajor_val_three]
    show i.val * 64 + j.val = (i.val * 64 + j.val) * 1 + 0
    omega)).trans ?_
  exact maskedAdj_apply P3 i j

end Cert.KernelIdeal.Terms

end
-- ==== Proof.KernelValue.lean ====
/-
  The kernel's result array is the factored sum, entry by entry.

  Grid point t works on batch element t: its blocks of the features, the adjacency and the difference vectors are the
  slices [t, ·, ·(, ·)] of the arrays, the matrix and the bias are taken whole, and what it writes back is block t of
  the result.  So entry (0, i, o) of the block the body leaves at point t is the factored sum at (t, i, o), and since
  the 128 blocks tile the result, the whole result array is the factored sum.
-/
import proofs.«101263_j33277406609831_1_alg».proof.Proof.Spec
import proofs.«101263_j33277406609831_1_alg».proof.Proof.KernelTerms
import proofs.«101263_j33277406609831_1_alg».proof.Proof.Gen.KernelIdeal.Value

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.EdgeAgg Cert.KernelIdeal.Terms
open Idealize.ShloMosaic.Pipeline (Dat)

/-! ## One entry of the block a point leaves -/

/-- Entry (0, i, o) of what the body leaves in the result's block, when its input blocks are the slices at batch
    element b of arrays d, f, A and the whole of W and β: the factored sum at (b, i, o). -/
theorem block_eq_factored (P0 : Vec Ideal S1x64x128 .f32) (P1 : Vec Ideal S128x258 .f32) (P2 : Vec Ideal S128 .f32)
    (P3 : Vec Ideal S1x64x64 .f32) (P4 : Vec Ideal S1x64x64x2 .f32)
    (d : SDiff.Idx → EReal) (f : SFeat.Idx → EReal) (A : SAdj.Idx → EReal) (W : SW.Idx → EReal) (β : SBias.Idx → EReal)
    (b : Fin 128) (i : Fin 64) (o : Fin 128)
    (h0 : ∀ (i : Fin 64) (k : Fin 128), P0 (ix3 (0 : Fin 1) i k) = f (ix3 b i k))
    (h1 : ∀ (o : Fin 128) (k : Fin 258), P1 (ix2 o k) = W (ix2 o k))
    (h2 : ∀ o : Fin 128, P2 (ix1 o) = β (ix1 o))
    (h3 : ∀ i j : Fin 64, P3 (ix3 (0 : Fin 1) i j) = A (ix3 b i j))
    (h4 : ∀ (i j : Fin 64) (c : Fin 2), P4 (ix4 (0 : Fin 1) i j c) = d (ix4 b i j c)) :
    Cert.KernelIdeal.Value.E5 P0 P1 P2 P3 P4 (ix3 (0 : Fin 1) i o) = factored d f A W β b i o := by
  have e0 : Cert.KernelIdeal.Value.ix5_0 (ix3 (0 : Fin 1) i o) = ix2 i o := funext fun a => by
    match a with | ⟨0, _⟩ => rfl | ⟨1, _⟩ => rfl
  have e1 : Cert.KernelIdeal.Value.ix5_1 (ix3 (0 : Fin 1) i o) = ix2 i o := funext fun a => by
    match a with | ⟨0, _⟩ => rfl | ⟨1, _⟩ => rfl
  have e2 : Cert.KernelIdeal.Value.ix5_2 (ix3 (0 : Fin 1) i o) = ix2 i (0 : Fin 2) := funext fun a => by
    match a with | ⟨0, _⟩ => rfl | ⟨1, _⟩ => rfl
  have e3 : Cert.KernelIdeal.Value.ix5_3 (ix3 (0 : Fin 1) i o) = ix2 o (colDiff 0) := funext fun a => by
    match a with | ⟨0, _⟩ => rfl | ⟨1, _⟩ => rfl
  have e4 : Cert.KernelIdeal.Value.ix5_4 (ix3 (0 : Fin 1) i o) = ix2 i (1 : Fin 2) := funext fun a => by
    match a with | ⟨0, _⟩ => rfl | ⟨1, _⟩ => rfl
  have e5 : Cert.KernelIdeal.Value.ix5_5 (ix3 (0 : Fin 1) i o) = ix2 o (colDiff 1) := funext fun a => by
    match a with | ⟨0, _⟩ => rfl | ⟨1, _⟩ => rfl
  show max ((k0_pay4 P0 P1 P2 (Cert.KernelIdeal.Value.ix5_0 (ix3 (0 : Fin 1) i o))
        + k0_pay6 P0 P3 P1 (Cert.KernelIdeal.Value.ix5_1 (ix3 (0 : Fin 1) i o)))
      + ((multiReduction .add [1] S64x2
            (mulf (broadcastTo S64x64x2 (shapeCast S64x64x1 (k0_pay5 P3) shapeCasts_S64x64_S64x64x1) broadcasts_S64x64x1_S64x64x2)
              (shapeCast S64x64x2 P4 shapeCasts_S1x64x64x2_S64x64x2))
            0x00000000#32 reduces_S64x64x2_S64x2 (.inl rfl) rfl (Cert.KernelIdeal.Value.ix5_2 (ix3 (0 : Fin 1) i o)) : EReal)
          * P1 (Cert.KernelIdeal.Value.ix5_3 (ix3 (0 : Fin 1) i o))
        + (multiReduction .add [1] S64x2
            (mulf (broadcastTo S64x64x2 (shapeCast S64x64x1 (k0_pay5 P3) shapeCasts_S64x64_S64x64x1) broadcasts_S64x64x1_S64x64x2)
              (shapeCast S64x64x2 P4 shapeCasts_S1x64x64x2_S64x64x2))
            0x00000000#32 reduces_S64x64x2_S64x2 (.inl rfl) rfl (Cert.KernelIdeal.Value.ix5_4 (ix3 (0 : Fin 1) i o)) : EReal)
          * P1 (Cert.KernelIdeal.Value.ix5_5 (ix3 (0 : Fin 1) i o))))
      (Ideal.ofBits .f32 0x00000000#32) = _
  rw [e0, e1, e2, e3, e4, e5, recvTerm_apply, sendTerm_apply, diffSum_apply, diffSum_apply, ofBits_63, Ideal.ofBits_zero_f32]
  unfold factored recvDot sendDot
  simp only [h0, h1, h2, h3, h4]

/-! ## From blocks to the array -/

variable (m : (ℓ : Loc nD τ sig) → Buf (Elt Ideal) ℓ) (ρ : Dev nD → PrngReg)

theorem off4_zero : (![0, 0, 0, 0] : Fin 4 → Nat) = fun _ => 0 := funext fun a => by fin_cases a <;> rfl
theorem off3_zero : (![0, 0, 0] : Fin 3 → Nat) = fun _ => 0 := funext fun a => by fin_cases a <;> rfl
theorem off2_zero : (![0, 0] : Fin 2 → Nat) = fun _ => 0 := funext fun a => by fin_cases a <;> rfl
theorem off1_zero : (![0] : Fin 1 → Nat) = fun _ => 0 := funext fun a => by fin_cases a <;> rfl

/-- The printed index maps over the grid: point t takes slice t of the batched arrays and the one block of the
    matrix and of the bias, and writes slice t of the result. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ win0_4.index t (0 : Fin 1) = 0
    ∧ (win0_5.index t (0 : Fin 3) = t.val ∧ win0_5.index t (1 : Fin 3) = 0 ∧ win0_5.index t (2 : Fin 3) = 0) :=
  (by decide +kernel : ∀ t : Fin grid0.N, _)

/-- The result array as one function of the argument arrays. -/
def result (a0 : SDiff.Idx → EReal) (a1 : SFeat.Idx → EReal) (a2 : SAdj.Idx → EReal) (a3 : SW.Idx → EReal)
    (a4 : SBias.Idx → EReal) : S128x64x128.Idx → EReal := fun y => factored a0 a1 a2 a3 a4 (y 0) (y 1) (y 2)

/-- Entry y of the block point t leaves is the result function at the array index under y. -/
theorem point_eq (c : Dev nD) (t : Fin cfg0.N) (y : S1x64x128.Idx) :
    out0_5 (iblk m c 0 t) (iblk m c 1 t) (iblk m c 2 t) (iblk m c 3 t) (iblk m c 4 t) y
      = result (V m c main_arg0) (V m c main_arg1) (V m c main_arg2) (V m c main_arg3) (V m c main_arg4)
          (((cfg0.win 5).blk t).view.emb y) := by
  obtain ⟨u, i, o, rfl⟩ : ∃ (u : Fin 1) (i : Fin 64) (o : Fin 128), y = ix3 u i o := ⟨y 0, y 1, y 2, eq_ix3 y⟩
  obtain rfl : u = 0 := Subsingleton.elim _ _
  have hb : t.val < 128 := t.isLt
  obtain ⟨⟨a0, a1, a2, a3⟩, ⟨b0, b1, b2⟩, ⟨c0, c1, c2⟩, ⟨d0, d1⟩, e0, ⟨g0, g1, g2⟩⟩ := idx_facts t
  unfold out0_5
  refine (Cert.KernelIdeal.Value.canon5_eq _ _ _ _ _ (ix3 (0 : Fin 1) i o)).trans ?_
  simp only [View.ld_unit_zero (S := S1x64x128) off3_zero, View.ld_unit_zero (S := S128x258) off2_zero,
    View.ld_unit_zero (S := S128) off1_zero, View.ld_unit_zero (S := S1x64x64) off3_zero,
    View.ld_unit_zero (S := S1x64x64x2) off4_zero]
  refine (block_eq_factored (iblk m c 1 t) (iblk m c 3 t) (iblk m c 4 t) (iblk m c 2 t) (iblk m c 0 t)
    (V m c main_arg0) (V m c main_arg1) (V m c main_arg2) (V m c main_arg3) (V m c main_arg4) ⟨t.val, hb⟩ i o
    ?_ ?_ ?_ ?_ ?_).trans ?_
  · intro i k
    show V m c main_arg1 (((cfg0.win 1).blk t).view.emb (ix3 (0 : Fin 1) i k)) = V m c main_arg1 (ix3 ⟨t.val, hb⟩ i k)
    refine congrArg _ (funext fun a => Fin.ext ?_)
    match a with
    | ⟨0, _⟩ => show win0_1.index t (0 : Fin 3) * 1 + 1 * 0 = t.val; omega
    | ⟨1, _⟩ => show win0_1.index t (1 : Fin 3) * 64 + 1 * i.val = i.val; omega
    | ⟨2, _⟩ => show win0_1.index t (2 : Fin 3) * 128 + 1 * k.val = k.val; omega
  · intro o k
    show V m c main_arg3 (((cfg0.win 3).blk t).view.emb (ix2 o k)) = V m c main_arg3 (ix2 o k)
    refine congrArg _ (funext fun a => Fin.ext ?_)
    match a with
    | ⟨0, _⟩ => show win0_3.index t (0 : Fin 2) * 128 + 1 * o.val = o.val; omega
    | ⟨1, _⟩ => show win0_3.index t (1 : Fin 2) * 258 + 1 * k.val = k.val; omega
  · intro o
    show V m c main_arg4 (((cfg0.win 4).blk t).view.emb (ix1 o)) = V m c main_arg4 (ix1 o)
    refine congrArg _ (funext fun a => Fin.ext ?_)
    match a with
    | ⟨0, _⟩ => show win0_4.index t (0 : Fin 1) * 128 + 1 * o.val = o.val; omega
  · intro i j
    show V m c main_arg2 (((cfg0.win 2).blk t).view.emb (ix3 (0 : Fin 1) i j)) = V m c main_arg2 (ix3 ⟨t.val, hb⟩ i j)
    refine congrArg _ (funext fun a => Fin.ext ?_)
    match a with
    | ⟨0, _⟩ => show win0_2.index t (0 : Fin 3) * 1 + 1 * 0 = t.val; omega
    | ⟨1, _⟩ => show win0_2.index t (1 : Fin 3) * 64 + 1 * i.val = i.val; omega
    | ⟨2, _⟩ => show win0_2.index t (2 : Fin 3) * 64 + 1 * j.val = j.val; omega
  · intro i j cc
    show V m c main_arg0 (((cfg0.win 0).blk t).view.emb (ix4 (0 : Fin 1) i j cc)) = V m c main_arg0 (ix4 ⟨t.val, hb⟩ i j cc)
    refine congrArg _ (funext fun a => Fin.ext ?_)
    match a with
    | ⟨0, _⟩ => show win0_0.index t (0 : Fin 4) * 1 + 1 * 0 = t.val; omega
    | ⟨1, _⟩ => show win0_0.index t (1 : Fin 4) * 64 + 1 * i.val = i.val; omega
    | ⟨2, _⟩ => show win0_0.index t (2 : Fin 4) * 64 + 1 * j.val = j.val; omega
    | ⟨3, _⟩ => show win0_0.index t (3 : Fin 4) * 2 + 1 * cc.val = cc.val; omega
  · have he : ((cfg0.win 5).blk t).view.emb (ix3 (0 : Fin 1) i o) = ix3 (⟨t.val, hb⟩ : Fin 128) i o := by
      funext a; apply Fin.ext
      match a with
      | ⟨0, _⟩ => show win0_5.index t (0 : Fin 3) * 1 + 1 * 0 = t.val; omega
      | ⟨1, _⟩ => show win0_5.index t (1 : Fin 3) * 64 + 1 * i.val = i.val; omega
      | ⟨2, _⟩ => show win0_5.index t (2 : Fin 3) * 128 + 1 * o.val = o.val; omega
    rw [he]
    rfl

/-- What point t writes back is block t of the result function of the arrays as the region finds them. -/
theorem flushed_eq (c : Dev nD) (t : Fin cfg0.N) :
    (dats m 0 c).flushed 5 t = ((cfg0.win 5).blk t).view.read (Elt Ideal)
      (result (V m c main_arg0) (V m c main_arg1) (V m c main_arg2) (V m c main_arg3) (V m c main_arg4)) := by
  rw [Cert.KernelIdeal.Value.flushed5]
  funext y
  exact point_eq m c t y

/-- An index of the result array is in point t's block iff each coordinate is in the block's range on its axis. -/
theorem mem_blk (t : Fin cfg0.N) (y : S128x64x128.Idx) :
    y ∈ ((cfg0.win 5).blk t).view.set ↔ ∀ a : Fin 3, win0_5.index t a * S1x64x128.size a ≤ (y a).val ∧ (y a).val < win0_5.index t a * S1x64x128.size a + S1x64x128.size a := by
  show y ∈ ((View.whole main_v0).slice (win0_5.rect t)).set ↔ _
  rw [View.set_slice_whole, Rect.mem_set_unit]
  exact Iff.rfl

/-- The 128 blocks tile the result: index y lies in the block of the point numbered by its batch coordinate. -/
theorem cover (y : S128x64x128.Idx) : ∃ t : Fin cfg0.N, (cfg0.win 5).flush t = true ∧ y ∈ ((cfg0.win 5).blk t).view.set := by
  have h0 : (y 0).val < 128 := (y 0).isLt
  have h1 : (y 1).val < 64 := (y 1).isLt
  have h2 : (y 2).val < 128 := (y 2).isLt
  refine ⟨⟨(y 0).val, h0⟩, flush0_5 _, ?_⟩
  obtain ⟨-, -, -, -, -, ⟨g0', g1, g2⟩⟩ := idx_facts ⟨(y 0).val, h0⟩
  have g0 : win0_5.index ⟨(y 0).val, h0⟩ (0 : Fin 3) = (y 0).val := g0'
  rw [mem_blk]
  intro a
  match a with
  | ⟨0, _⟩ => show win0_5.index ⟨(y 0).val, h0⟩ (0 : Fin 3) * 1 ≤ (y 0).val ∧ (y 0).val < win0_5.index ⟨(y 0).val, h0⟩ (0 : Fin 3) * 1 + 1; rw [g0]; constructor <;> omega
  | ⟨1, _⟩ => show win0_5.index ⟨(y 0).val, h0⟩ (1 : Fin 3) * 64 ≤ (y 1).val ∧ (y 1).val < win0_5.index ⟨(y 0).val, h0⟩ (1 : Fin 3) * 64 + 64; rw [g1]; constructor <;> omega
  | ⟨2, _⟩ => show win0_5.index ⟨(y 0).val, h0⟩ (2 : Fin 3) * 128 ≤ (y 2).val ∧ (y 2).val < win0_5.index ⟨(y 0).val, h0⟩ (2 : Fin 3) * 128 + 128; rw [g2]; constructor <;> omega

/-- The result array after the run is the result function of the arguments as launched. -/
theorem final (c : Dev nD) :
    (dats m 0 c).arrAt 5 cfg0.N = result (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq m c t) cover

/-- Every weakly fair execution of the kernel's program ends with the result array at the result function of the
    arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference at one entry is the per-edge sum.

  The reference builds, for every edge (b, i, j), the 258 inputs of the linear layer by two concatenations
  (receiver features; adjacency times [sender features ; difference vector]), contracts them with the matrix, adds the
  bias, multiplies by the off-diagonal mask 1 - [i = j], sums over the senders j and rectifies. Read entry by entry on
  the extended reals this is, term by term, the expression perEdge: no arithmetic law is used beyond splitting the
  sum over the 258 columns into its three blocks (128 + 128 + 2).
-/
import proofs.«101263_j33277406609831_1_alg».proof.Proof.Spec
import proofs.«101263_j33277406609831_1_alg».proof.Proof.Gen.ReferenceIdeal.Read

noncomputable section

open scoped BigOperators

namespace Cert.EdgeAgg

open Idealize.ShloMosaic Idealize.ShloMosaic.ValueIdx
open Cert.ReferenceIdeal Cert.ReferenceIdeal.Read

/-! ## The off-diagonal mask -/

/-- The word 0x3F800000 is the number one. -/
theorem ofBits_one_f32 : Ideal.ofBits .f32 0x3F800000#32 = 1 := by
  simp [Ideal.ofBits, Ideal.ieee, -EReal.coe_mul]; norm_num

/-- Two agent numbers (below 64) written as 32-bit words are equal words exactly when they are the same agent. -/
theorem iota_eq_bit (i j : Fin 64) :
    IntOp.cmpi .eq (IntOp.addi (BitVec.ofNat 32 i.val) 0#32) (BitVec.ofNat 32 j.val)
      = if i = j then 1#1 else 0#1 := by
  unfold IntOp.cmpi IntOp.addi
  rw [BitVec.add_zero]
  by_cases h : i = j
  · subst h; simp
  · rw [if_neg h]
    have hne : ¬ (BitVec.ofNat 32 i.val = BitVec.ofNat 32 j.val) := by
      intro e
      have e' := congrArg BitVec.toNat e
      rw [BitVec.toNat_ofNat, BitVec.toNat_ofNat] at e'
      have hi := i.isLt
      have hj := j.isLt
      exact h (Fin.ext (by omega))
    rw [show (BitVec.ofNat 32 i.val == BitVec.ofNat 32 j.val) = false from beq_eq_false_iff_ne.mpr hne]
    rfl

/-- The mask at an edge: one minus the indicator of the diagonal. -/
theorem mask_apply (b : Fin 128) (i j : Fin 64) (o : Fin 128) :
    val_main_v22 (F := Ideal) (ix4 b i j o) = offDiag i j := by
  rw [val_main_v22_apply, val_main_v21_apply, val_main_v20_apply, val_main_v19_apply, val_main_cst_apply,
    val_main_v18_apply, val_main_v17_apply, val_main_v16_apply, val_main_v13_apply, val_main_v14_apply,
    val_main_v15_apply, val_main_c_apply]
  show Ideal.ofBits .f32 0x3F800000#32
      - (((IntOp.cmpi .eq (IntOp.addi (BitVec.ofNat 32 i.val) 0#32) (BitVec.ofNat 32 j.val)).toNat : ℝ) : EReal)
    = offDiag i j
  rw [ofBits_one_f32, iota_eq_bit]
  unfold offDiag
  by_cases h : i = j
  · rw [if_pos h, if_pos h]
    rw [show (1#1 : BitVec 1).toNat = 1 from rfl, Nat.cast_one, ← EReal.coe_one, ← EReal.coe_sub, sub_self,
      EReal.coe_zero]
  · rw [if_neg h, if_neg h]
    rw [show (0#1 : BitVec 1).toNat = 0 from rfl, Nat.cast_zero, EReal.coe_zero, sub_zero]

/-! ## The bias -/

/-- The bias broadcast over the edges reads the bias of the output. -/
theorem bias_apply (x4 : SBias.Idx → EReal) (b : Fin 128) (i j : Fin 64) (o : Fin 128) :
    val_main_v11 (F := Ideal) x4 (ix4 b i j o) = x4 (ix1 o) := by
  rw [val_main_v11_apply, val_main_v10_apply]
  exact congrArg x4 (funext fun a => Fin.ext (by match a with | ⟨0, _⟩ => rfl))

/-! ## The layer's 258 inputs at an edge -/

section Inputs
variable (x0 : SDiff.Idx → EReal) (x1 : SFeat.Idx → EReal) (x2 : SAdj.Idx → EReal)

/-- The adjacency weight broadcast along the 130 sender inputs. -/
theorem adj_apply (b : Fin 128) (i j : Fin 64) (m : Fin 130) :
    val_main_v6 (F := Ideal) x2 (ix4 b i j m) = x2 (ix3 b i j) := by
  rw [val_main_v6_apply, val_main_v4_apply]
  exact congrArg x2 (funext fun a => Fin.ext (by match a with | ⟨0, _⟩ => rfl | ⟨1, _⟩ => rfl | ⟨2, _⟩ => rfl))

/-- The first 128 of the sender inputs are the sender's features, -/
theorem sender_feat (b : Fin 128) (i j : Fin 64) (k : Fin 128) :
    val_main_v5 (F := Ideal) x0 x1 (ix4 b i j (⟨k.val, by omega⟩ : Fin 130)) = x1 (ix3 b j k) := by
  unfold val_main_v5
  refine (concatenate_pair_apply_left (s₁ := S128x64x64x128) (s₂ := S128x64x64x2) (3 : Fin 4) _ _ _
    (ix4 b i j (⟨k.val, by omega⟩ : Fin 130)) rfl (ix4 b i j k)
    (fun a => by match a with | ⟨0, _⟩ => rfl | ⟨1, _⟩ => rfl | ⟨2, _⟩ => rfl | ⟨3, _⟩ => rfl)).trans ?_
  rw [val_main_v3_apply, val_main_v2_apply]
  exact congrArg x1 (funext fun a => Fin.ext (by match a with | ⟨0, _⟩ => rfl | ⟨1, _⟩ => rfl | ⟨2, _⟩ => rfl))

/-- the last two the coordinates of the difference vector. -/
theorem sender_diff (b : Fin 128) (i j : Fin 64) (c : Fin 2) :
    val_main_v5 (F := Ideal) x0 x1 (ix4 b i j (⟨128 + c.val, by omega⟩ : Fin 130)) = x0 (ix4 b i j c) := by
  unfold val_main_v5
  exact concatenate_pair_apply_right (s₁ := S128x64x64x128) (s₂ := S128x64x64x2) (3 : Fin 4) _ _ _
    (ix4 b i j (⟨128 + c.val, by omega⟩ : Fin 130)) rfl rfl
    (ix4 b i j c)
    (fun a => by
      match a with
      | ⟨0, _⟩ => intro _; rfl
      | ⟨1, _⟩ => intro _; rfl
      | ⟨2, _⟩ => intro _; rfl
      | ⟨3, _⟩ => intro h; exact absurd rfl h)
    (by show c.val + 128 = 128 + c.val; omega)

/-- Columns 0..127 of the layer's input: the receiver's features. -/
theorem input_recv (b : Fin 128) (i j : Fin 64) (k : Fin 128) :
    val_main_v8 (F := Ideal) x0 x1 x2 (ix4 b i j (colRecv k)) = x1 (ix3 b i k) := by
  unfold val_main_v8
  refine (concatenate_pair_apply_left (s₁ := S128x64x64x128) (s₂ := S128x64x64x130) (3 : Fin 4) _ _ _
    (ix4 b i j (colRecv k)) rfl (ix4 b i j k)
    (fun a => by match a with | ⟨0, _⟩ => rfl | ⟨1, _⟩ => rfl | ⟨2, _⟩ => rfl | ⟨3, _⟩ => rfl)).trans ?_
  rw [val_main_v1_apply, val_main_v0_apply]
  exact congrArg x1 (funext fun a => Fin.ext (by match a with | ⟨0, _⟩ => rfl | ⟨1, _⟩ => rfl | ⟨2, _⟩ => rfl))

/-- A column past the first 128 reads the weighted sender inputs, 128 columns to the left. -/
theorem input_right (b : Fin 128) (i j : Fin 64) (m : Fin 130) :
    val_main_v8 (F := Ideal) x0 x1 x2 (ix4 b i j (⟨128 + m.val, by omega⟩ : Fin 258))
      = x2 (ix3 b i j) * val_main_v5 (F := Ideal) x0 x1 (ix4 b i j m) := by
  unfold val_main_v8
  refine (concatenate_pair_apply_right (s₁ := S128x64x64x128) (s₂ := S128x64x64x130) (3 : Fin 4) _ _ _
    (ix4 b i j (⟨128 + m.val, by omega⟩ : Fin 258)) rfl rfl
    (ix4 b i j m)
    (fun a => by
      match a with
      | ⟨0, _⟩ => intro _; rfl
      | ⟨1, _⟩ => intro _; rfl
      | ⟨2, _⟩ => intro _; rfl
      | ⟨3, _⟩ => intro h; exact absurd rfl h)
    (by show m.val + 128 = 128 + m.val; omega)).trans ?_
  rw [val_main_v7_apply, adj_apply]
  rfl

/-- Columns 128..255: the adjacency weight times the sender's features. -/
theorem input_send (b : Fin 128) (i j : Fin 64) (k : Fin 128) :
    val_main_v8 (F := Ideal) x0 x1 x2 (ix4 b i j (colSend k)) = x2 (ix3 b i j) * x1 (ix3 b j k) := by
  have h := input_right x0 x1 x2 b i j (⟨k.val, by omega⟩ : Fin 130)
  rw [sender_feat] at h
  exact h

/-- Columns 256, 257: the adjacency weight times the difference vector. -/
theorem input_diff (b : Fin 128) (i j : Fin 64) (c : Fin 2) :
    val_main_v8 (F := Ideal) x0 x1 x2 (ix4 b i j (colDiff c)) = x2 (ix3 b i j) * x0 (ix4 b i j c) := by
  have h := input_right x0 x1 x2 b i j (⟨128 + c.val, by omega⟩ : Fin 130)
  rw [sender_diff] at h
  refine Eq.trans (congrArg (val_main_v8 (F := Ideal) x0 x1 x2) ?_) h
  exact congrArg (ix4 b i j) (Fin.ext (by show 256 + c.val = 128 + (128 + c.val); omega))

end Inputs

/-! ## The contraction over the 258 columns, block by block -/

/-- A sum over the 258 columns is the sum over the receiver block, the sender block and the two difference columns. -/
theorem sum_cols (g : Fin 258 → EReal) :
    ∑ k : Fin 258, g k
      = ∑ k : Fin 128, g (colRecv k) + (∑ k : Fin 128, g (colSend k) + ∑ c : Fin 2, g (colDiff c)) := by
  show ∑ k : Fin (128 + (128 + 2)), g k = _
  rw [Fin.sum_univ_add, Fin.sum_univ_add]
  rfl

section Edge
variable (x0 : SDiff.Idx → EReal) (x1 : SFeat.Idx → EReal) (x2 : SAdj.Idx → EReal) (x3 : SW.Idx → EReal)
  (x4 : SBias.Idx → EReal)

/-- The layer's output o at an edge, before the bias: the three blocks of the contraction. -/
theorem dot_apply (b : Fin 128) (i j : Fin 64) (o : Fin 128) :
    val_main_v9 (F := Ideal) x0 x1 x2 x3 (ix4 b i j o)
      = recvDot x1 x3 b i o
        + ((∑ k : Fin 128, (x2 (ix3 b i j) * x1 (ix3 b j k)) * x3 (ix2 o (colSend k)))
          + ∑ c : Fin 2, (x2 (ix3 b i j) * x0 (ix4 b i j c)) * x3 (ix2 o (colDiff c))) := by
  rw [val_main_v9_apply]
  have e : ∀ k : Fin 258,
      val_main_v8 (F := Ideal) x0 x1 x2 (lidx_main_v9 (ix4 b i j o) k) * x3 (ridx_main_v9 (ix4 b i j o) k)
        = (fun k : Fin 258 => val_main_v8 (F := Ideal) x0 x1 x2 (ix4 b i j k) * x3 (ix2 o k)) k := fun k => by
    rw [show lidx_main_v9 (ix4 b i j o) k = ix4 b i j k from
        funext fun a => Fin.ext (by match a with | ⟨0, _⟩ => rfl | ⟨1, _⟩ => rfl | ⟨2, _⟩ => rfl | ⟨3, _⟩ => rfl),
      show ridx_main_v9 (ix4 b i j o) k = ix2 o k from
        funext fun a => Fin.ext (by match a with | ⟨0, _⟩ => rfl | ⟨1, _⟩ => rfl)]
  rw [Finset.sum_congr rfl fun k _ => e k, sum_cols]
  show ∑ k : Fin 128, val_main_v8 (F := Ideal) x0 x1 x2 (ix4 b i j (colRecv k)) * x3 (ix2 o (colRecv k))
      + (∑ k : Fin 128, val_main_v8 (F := Ideal) x0 x1 x2 (ix4 b i j (colSend k)) * x3 (ix2 o (colSend k))
        + ∑ c : Fin 2, val_main_v8 (F := Ideal) x0 x1 x2 (ix4 b i j (colDiff c)) * x3 (ix2 o (colDiff c))) = _
  unfold recvDot
  refine congrArg₂ (· + ·) (Finset.sum_congr rfl fun k _ => ?_)
    (congrArg₂ (· + ·) (Finset.sum_congr rfl fun k _ => ?_) (Finset.sum_congr rfl fun c _ => ?_))
  · rw [input_recv]
  · rw [input_send]
  · rw [input_diff]

/-- One edge's term of the sum over senders: the message's output o, masked. -/
theorem edge_apply (b : Fin 128) (i j : Fin 64) (o : Fin 128) :
    val_main_v23 (F := Ideal) x0 x1 x2 x3 x4 (ix4 b i j o)
      = ((recvDot x1 x3 b i o
            + ((∑ k : Fin 128, (x2 (ix3 b i j) * x1 (ix3 b j k)) * x3 (ix2 o (colSend k)))
              + ∑ c : Fin 2, (x2 (ix3 b i j) * x0 (ix4 b i j c)) * x3 (ix2 o (colDiff c))))
          + x4 (ix1 o)) * offDiag i j := by
  rw [val_main_v23_apply, val_main_v12_apply, dot_apply, bias_apply, mask_apply]
  rfl

end Edge

theorem ref_apply (x0 : SDiff.Idx → EReal) (x1 : SFeat.Idx → EReal) (x2 : SAdj.Idx → EReal) (x3 : SW.Idx → EReal)
    (x4 : SBias.Idx → EReal) (b : Fin 128) (i : Fin 64) (o : Fin 128) :
    Cert.ReferenceIdeal.Read.val_main_v25 (F := Ideal) x0 x1 x2 x3 x4 (ix3 b i o) = perEdge x0 x1 x2 x3 x4 b i o := by
  rw [val_main_v25_apply, val_main_v24_apply, val_main_cst_0_apply, val_main_call0_v0_apply, val_main_call0_cst_apply]
  show max (Ideal.ofBits .f32 0x00000000#32
      + ∑ j : Fin 64, val_main_v23 (F := Ideal) x0 x1 x2 x3 x4 (idx_main_v24 (ix3 b i o) j))
    (Ideal.ofBits .f32 0x00000000#32) = _
  rw [Ideal.ofBits_zero_f32]
  unfold perEdge
  refine congrArg (fun t => max (0 + t) 0) (Finset.sum_congr rfl fun j _ => ?_)
  rw [show idx_main_v24 (ix3 b i o) j = ix4 b i j o from
    funext fun a => Fin.ext (by match a with | ⟨0, _⟩ => rfl | ⟨1, _⟩ => rfl | ⟨2, _⟩ => rfl | ⟨3, _⟩ => rfl)]
  exact edge_apply x0 x1 x2 x3 x4 b i j o

end Cert.EdgeAgg

end
-- ==== Proof.Algebra.lean ====
/-
  On real inputs the per-edge sum and the factored sum are one number.

  With every entry real, both spellings are the coercion of a real expression (the coercion ℝ → EReal commutes with
  +, ·, max and finite sums), and over ℝ the identity is the distributive law: writing μ_j = [j ≠ i] (so Σ_j μ_j = 63),
  a_j for the adjacency weight, T_j = Σ_k f_jk w_k for the sender block applied to agent j, and R for the receiver's dot,

    Σ_j ((R + (a_j T_j + (a_j d_j0 w₀ + a_j d_j1 w₁))) + β) μ_j
      = 63 (R + β) + Σ_j (a_j μ_j) T_j + (Σ_j (a_j μ_j) d_j0) w₀ + (Σ_j (a_j μ_j) d_j1) w₁.
-/
import proofs.«101263_j33277406609831_1_alg».proof.Proof.Spec

noncomputable section

open scoped BigOperators

namespace Cert.EdgeAgg

open Idealize.ShloMosaic Idealize.ShloMosaic.ValueIdx

/-- The coercion of a finite real sum is the sum of the coercions. -/
theorem coe_sum {ι : Type*} (s : Finset ι) (g : ι → ℝ) :
    ((∑ x ∈ s, g x : ℝ) : EReal) = ∑ x ∈ s, (g x : EReal) := by
  classical
  induction s using Finset.induction_on with
  | empty => simp
  | insert a s ha ih => rw [Finset.sum_insert ha, Finset.sum_insert ha, EReal.coe_add, ih]

/-- The coercion commutes with max. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- The diagonal mask is the coercion of the real 0/1 mask. -/
theorem offDiag_eq_coe (i j : Fin 64) : offDiag i j = (((if i = j then 0 else 1 : ℝ)) : EReal) := by
  unfold offDiag
  split_ifs <;> simp

/-- The off-diagonal mask sums to 63 over the 64 senders. -/
theorem sum_mask (i : Fin 64) : ∑ j : Fin 64, (if i = j then (0 : ℝ) else 1) = 63 := by
  have h : ∀ j : Fin 64, (if i = j then (0 : ℝ) else 1) = 1 - (if i = j then 1 else 0) := by
    intro j; split_ifs <;> norm_num
  simp only [h, Finset.sum_sub_distrib, Finset.sum_ite_eq, Finset.mem_univ, if_true, Finset.sum_const,
    Finset.card_univ, Fintype.card_fin]
  norm_num

/-- The real identity: the sum over senders of the masked messages, with the matrix pulled out. -/
theorem real_identity (i : Fin 64) (R β : ℝ) (a : Fin 64 → ℝ) (g : Fin 64 → Fin 128 → ℝ) (w : Fin 128 → ℝ)
    (d0 d1 : Fin 64 → ℝ) (w0 w1 : ℝ) :
    0 + ∑ j : Fin 64,
        ((R + ((∑ k : Fin 128, (a j * g j k) * w k) + ((a j * d0 j) * w0 + (a j * d1 j) * w1))) + β)
          * (if i = j then (0 : ℝ) else 1)
      = ((63 : ℝ) * (R + β) + ∑ j : Fin 64, (a j * (if i = j then (0 : ℝ) else 1)) * ∑ k : Fin 128, g j k * w k)
        + ((∑ j : Fin 64, (a j * (if i = j then (0 : ℝ) else 1)) * d0 j) * w0
          + (∑ j : Fin 64, (a j * (if i = j then (0 : ℝ) else 1)) * d1 j) * w1) := by
  have hT : ∀ j : Fin 64, (∑ k : Fin 128, (a j * g j k) * w k) = a j * ∑ k : Fin 128, g j k * w k := by
    intro j
    rw [Finset.mul_sum]
    exact Finset.sum_congr rfl fun k _ => mul_assoc _ _ _
  have hterm : ∀ j : Fin 64,
      ((R + ((∑ k : Fin 128, (a j * g j k) * w k) + ((a j * d0 j) * w0 + (a j * d1 j) * w1))) + β)
          * (if i = j then (0 : ℝ) else 1)
        = (((R + β) * (if i = j then (0 : ℝ) else 1)
            + (a j * (if i = j then (0 : ℝ) else 1)) * ∑ k : Fin 128, g j k * w k)
          + (((a j * (if i = j then (0 : ℝ) else 1)) * d0 j) * w0
            + ((a j * (if i = j then (0 : ℝ) else 1)) * d1 j) * w1)) := by
    intro j
    rw [hT j]
    ring
  rw [zero_add, Finset.sum_congr rfl fun j _ => hterm j, Finset.sum_add_distrib, Finset.sum_add_distrib,
    Finset.sum_add_distrib, ← Finset.mul_sum, sum_mask, ← Finset.sum_mul, ← Finset.sum_mul]
  ring

theorem perEdge_eq_factored (d : SDiff.Idx → EReal) (f : SFeat.Idx → EReal) (A : SAdj.Idx → EReal) (W : SW.Idx → EReal)
    (β : SBias.Idx → EReal) (hd : AllReal d) (hf : AllReal f) (hA : AllReal A) (hW : AllReal W) (hβ : AllReal β)
    (b : Fin 128) (i : Fin 64) (o : Fin 128) :
    perEdge d f A W β b i o = factored d f A W β b i o := by
  have hd₁ : ∀ y, ∃ r : ℝ, d y = (r : EReal) := hd
  have hf₁ : ∀ y, ∃ r : ℝ, f y = (r : EReal) := hf
  have hA₁ : ∀ y, ∃ r : ℝ, A y = (r : EReal) := hA
  have hW₁ : ∀ y, ∃ r : ℝ, W y = (r : EReal) := hW
  have hβ₁ : ∀ y, ∃ r : ℝ, β y = (r : EReal) := hβ
  choose d' hd' using hd₁
  choose f' hf' using hf₁
  choose A' hA' using hA₁
  choose W' hW' using hW₁
  choose β' hβ' using hβ₁
  have key := congrArg (fun x : ℝ => ((max x 0 : ℝ) : EReal))
    (real_identity i (∑ k : Fin 128, f' (ix3 b i k) * W' (ix2 o (colRecv k))) (β' (ix1 o))
      (fun j => A' (ix3 b i j)) (fun j k => f' (ix3 b j k)) (fun k => W' (ix2 o (colSend k)))
      (fun j => d' (ix4 b i j 0)) (fun j => d' (ix4 b i j 1)) (W' (ix2 o (colDiff 0))) (W' (ix2 o (colDiff 1))))
  simp only [coe_max, EReal.coe_add, EReal.coe_mul, coe_sum, EReal.coe_zero] at key
  simp only [perEdge, factored, recvDot, sendDot, offDiag_eq_coe, Fin.sum_univ_two, hd', hf', hA', hW', hβ']
  exact key

end Cert.EdgeAgg

end
-- ==== Proof.Finite.lean ====
/-
  The precondition says every entry of every input is a real number.

  It is the conjunction of five tests of the form "every entry x of the array has |x| < +∞".  On the extended reals
  |x| is max x (-x), which is +∞ at both infinities and a real number elsewhere, so the test at one entry says that the
  entry is neither infinity.  A conjunction over all entries that comes out true was true at each entry.
-/
import proofs.«101263_j33277406609831_1_alg».proof.Proof.Spec
import proofs.«101263_j33277406609831_1_alg».proof.Pre_finite_inputs
import proofs.«101263_j33277406609831_1_alg».proof.Proof.Gen.Pre_finite_inputs
import Idealize.ShloMosaic.Lib.ReduceAll

noncomputable section

namespace Cert.EdgeAgg

open Idealize.ShloMosaic Idealize.ShloMosaic.ValueIdx

/-- One entry: the comparison |x| < +∞ holds only at a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

/-- One array: if the conjunction over all entries of |x| < +∞ is true, every entry is a real number. -/
theorem allReal_of_all {S U : Shape} {axes : List (Fin S.rank)} (x : S.Idx → EReal)
    (hb : Cert.Pre_finite_inputs.S_.BroadcastsInDim S (![] : Fin 0 → Fin S.rank))
    (hr : S.ReducesTo axes Cert.Pre_finite_inputs.S_) (init : U.Idx → BitVec 1) (hu : 0 < U.numel)
    (j : Cert.Pre_finite_inputs.S_.Idx)
    (e : Host.reduce IntOp.andi
        (cmpf .olt (Host.absf (F := Ideal) (φ := .f32) x)
          (broadcastInDim S ![] hb (constant (F := Ideal) Cert.Pre_finite_inputs.S_ .f32 0x7F800000#32)))
        init hr hu j = 1#1) :
    AllReal x := by
  intro y
  have hy := Host.reduce_andi_all _ init hr hu j e y
  exact real_of_abs_lt_top (x y) hy

theorem allReal_of_pre (a0 : SDiff.Idx → EReal) (a1 : SFeat.Idx → EReal) (a2 : SAdj.Idx → EReal) (a3 : SW.Idx → EReal)
    (a4 : SBias.Idx → EReal)
    (h : Cert.Pre_finite_inputs.fn (F := Ideal) a0 a1 a2 a3 a4 = fun _ => 1#1) :
    AllReal a0 ∧ AllReal a1 ∧ AllReal a2 ∧ AllReal a3 ∧ AllReal a4 := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨allReal_of_all a0 _ _ _ _ _ e0, allReal_of_all a1 _ _ _ _ _ e1, allReal_of_all a2 _ _ _ _ _ e2,
    allReal_of_all a3 _ _ _ _ _ e3, allReal_of_all a4 _ _ _ _ _ e4⟩

end Cert.EdgeAgg

end
-- ==== Proof.lean ====
/-
  Message aggregation on a complete graph of 64 agents, 128 batch elements: the kernel against its reference.

  The reference builds, for every ordered pair (i, j) of agents, the edge input [f_i ; A_ij f_j ; A_ij d_ij] of length
  258, applies one linear layer W, β to it, multiplies by 0 on the diagonal and 1 off it, sums over the senders j and
  rectifies.  The kernel never forms the edge inputs: since the layer is linear and the mask does not depend on the
  output, it computes 63 · (W₁ f_i + β), a matrix product of the adjacency with its diagonal zeroed against the
  senders' projections W₂ f_j, and two masked row sums of the difference vectors times the last two columns of W; one
  grid point per batch element.

  The claims.  The three frames: the kernel's two are the generated frame certificates; the reference's is its
  generated run with the results dropped.  The idealization rewrote nothing, so `preserves` is trivial.  The value
  claim: after the run the kernel's result array is the factored sum of the argument arrays, entry by entry
  (KernelValue.lean, over KernelTerms.lean: no hypothesis on the inputs); the reference's result at an entry is the
  per-edge sum (RefValue.lean: none either); and on inputs all of whose entries are real numbers — which is what the
  precondition says (Finite.lean) — the two sums are one real number (Algebra.lean: distributivity and the exchange of
  two finite sums, valid on the reals and not at the infinities).
-/
import proofs.«101263_j33277406609831_1_alg».proof.Defs
import proofs.«101263_j33277406609831_1_alg».proof.Proof.Gen.Kernel
import proofs.«101263_j33277406609831_1_alg».proof.Proof.Gen.Kernel.Skeleton
import proofs.«101263_j33277406609831_1_alg».proof.Proof.Gen.Kernel.Launch
import proofs.«101263_j33277406609831_1_alg».proof.Proof.Gen.Kernel.Points
import proofs.«101263_j33277406609831_1_alg».proof.Proof.Gen.Kernel.Frame
import proofs.«101263_j33277406609831_1_alg».proof.Proof.Gen.KernelIdeal
import proofs.«101263_j33277406609831_1_alg».proof.Proof.Gen.KernelIdeal.Skeleton
import proofs.«101263_j33277406609831_1_alg».proof.Proof.Gen.KernelIdeal.Launch
import proofs.«101263_j33277406609831_1_alg».proof.Proof.Gen.KernelIdeal.Points
import proofs.«101263_j33277406609831_1_alg».proof.Proof.Gen.KernelIdeal.Frame
import proofs.«101263_j33277406609831_1_alg».proof.Proof.Gen.ReferenceIdeal
import proofs.«101263_j33277406609831_1_alg».proof.Proof.Gen.KernelIdeal.Value
import proofs.«101263_j33277406609831_1_alg».proof.Proof.Gen.ReferenceIdeal.Run
import proofs.«101263_j33277406609831_1_alg».proof.Proof.Gen.ReferenceIdeal.Read
import proofs.«101263_j33277406609831_1_alg».proof.Proof.Gen.Pre_finite_inputs
import proofs.«101263_j33277406609831_1_alg».proof.Proof.KernelValue
import proofs.«101263_j33277406609831_1_alg».proof.Proof.RefValue
import proofs.«101263_j33277406609831_1_alg».proof.Proof.Algebra
import proofs.«101263_j33277406609831_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments alone: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On real inputs the reference's result array is the kernel's result function of the same arrays: entry by entry
    the per-edge sum, which is the factored sum. -/
theorem reference_eq_result (x0 : Cert.EdgeAgg.SDiff.Idx → EReal) (x1 : Cert.EdgeAgg.SFeat.Idx → EReal)
    (x2 : Cert.EdgeAgg.SAdj.Idx → EReal) (x3 : Cert.EdgeAgg.SW.Idx → EReal) (x4 : Cert.EdgeAgg.SBias.Idx → EReal)
    (h0 : Cert.EdgeAgg.AllReal x0) (h1 : Cert.EdgeAgg.AllReal x1) (h2 : Cert.EdgeAgg.AllReal x2)
    (h3 : Cert.EdgeAgg.AllReal x3) (h4 : Cert.EdgeAgg.AllReal x4) :
    Cert.ReferenceIdeal.Read.val_main_v25 (F := Ideal) x0 x1 x2 x3 x4 = Cert.KernelIdeal.ArrayValue.result x0 x1 x2 x3 x4 := by
  funext y
  obtain ⟨b, i, o, rfl⟩ : ∃ (b : Fin 128) (i : Fin 64) (o : Fin 128), y = ix3 b i o := ⟨y 0, y 1, y 2, eq_ix3 y⟩
  exact (Cert.EdgeAgg.ref_apply x0 x1 x2 x3 x4 b i o).trans (Cert.EdgeAgg.perEdge_eq_factored x0 x1 x2 x3 x4 h0 h1 h2 h3 h4 b i o)

/-- From memories agreeing on the arguments, whose entries the precondition makes real numbers, both programs end with
    the difference vectors passed through and the same aggregated array. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.KernelIdeal.ArrayValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.ArrayValue.run m ρ)
    obtain ⟨h5, h0, h1, h2, h3, h4⟩ := h c
    exact ⟨h0, h5, h0, h1, h2, h3, h4⟩
  · refine (θ_run Cert.ReferenceIdeal.defs _ _).mono (fun r h c => ?_) (Cert.ReferenceIdeal.Value.run (F := Ideal) m' ρ')
    obtain ⟨r0, r25, k0, k1, k2, k3, k4⟩ := h c
    obtain ⟨g0, g1, g2, g3, g4⟩ := hagree c
    obtain ⟨R0, R1, R2, R3, R4⟩ := Cert.EdgeAgg.allReal_of_pre _ _ _ _ _ (hpre c)
    refine ⟨r0.trans g0, ?_, k0, k1, k2, k3, k4⟩
    refine r25.trans ((Cert.ReferenceIdeal.Read.val_main_v25_eq _ _ _ _ _).trans ?_)
    rw [g0, g1, g2, g3, g4]
    exact reference_eq_result _ _ _ _ _ R0 R1 R2 R3 R4

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
